-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x2048 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048x2048, .bf16⟩
  | .hbm, ⟨5, _⟩ => ⟨S16384x2048, .f32⟩
  | .hbm, ⟨6, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S2048, .f32⟩
  | .local _ .vmem, ⟨8, _⟩ => ⟨S256x2048, .f32⟩
  | .local _ .vmem, ⟨9, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x4096x2048_S16384x2048 : S4x4096x2048.ShapeCasts S16384x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  shapeCasts_S16384x2048_S4x4096x2048 : S16384x2048.ShapeCasts S4x4096x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S16384x2048.size a
  hwx1_0 : ∀ i : grid1.Coords, EltTy.bits .f32 = 32 ∨ (Rect.block (s := S16384x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S16384x2048.size a
  hwx1_3 : ∀ i : grid1.Coords, EltTy.bits .f32 = 32 ∨ (Rect.block (s := S16384x2048) S256x2048.size (cc1_transform_3 i) (hinb1_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .i1⟩
  | .hbm, ⟨19, _⟩ => ⟨S_, .f32⟩
  | .hbm, ⟨20, _⟩ => ⟨S2048x2048, .f32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S4x4096x2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_6 : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.Spec.lean ====
/-
  The function both programs compute, over the extended reals.

  A weight matrix `w` of 2048-entry rows is quantized row by row. A row's scale is the mean of its absolute values,
  floored at the single-precision number nearest 1e-8. Each entry is divided by its row's scale and mapped to +1 when
  the quotient exceeds 0.05, to -1 when it is below -0.05, and to 0 otherwise; the dequantized weight is that sign times
  the row's scale. The layer is then `out[r, o] = Σ_k x[r, k] · wq[o, k] + b[o]`.

  Everything is stated for a matrix of any number `n` of rows, because a band of rows of the quantized matrix is the
  quantization of that band (the scale of a row reads only that row) and a band of rows of the layer's output is the
  layer applied to that band of inputs: this is what lets a computation done band by band be read as one function of
  the whole arrays.
-/
import Idealize.ShloMosaic.PureOps.Ideal
import Idealize.ShloMosaic.PureOps.Ideal.Laws
import Idealize.ShloMosaic.Lib.ValueIdx

noncomputable section

namespace TernaryLinear

open Idealize.ShloMosaic Idealize.ShloMosaic.ValueIdx

/-- A row's scale from the sum `s` of its 2048 absolute values: the mean `s / 2048`, floored at the single-precision
    number nearest 1e-8. -/
def scale (s : EReal) : EReal :=
  max (Ideal.div s (Ideal.ofBits .f32 0x45000000#32)) (Ideal.ofBits .f32 0x322BCC77#32)

/-- An entry `a` of a row of scale `s`, quantized to a sign and scaled back: `+s` when `a / s > 0.05`, `-s` when
    `a / s < -0.05`, and `0 · s` otherwise (the thresholds are the single-precision numbers nearest ±0.05). -/
def dequant (a s : EReal) : EReal :=
  Scalar.select (Ideal.cmp .ogt (Ideal.div a s) (Ideal.ofBits .f32 0x3D4CCCCD#32)) (Ideal.ofBits .f32 0x3F800000#32)
    (Scalar.select (Ideal.cmp .olt (Ideal.div a s) (Ideal.ofBits .f32 0xBD4CCCCD#32)) (Ideal.ofBits .f32 0xBF800000#32)
      (Ideal.ofBits .f32 0x00000000#32)) * s

/-- The sum of the absolute values of row `r`. -/
def absSum {n : ℕ} (w : (⟨2, ![n, 2048]⟩ : Shape).Idx → EReal) (r : Fin n) : EReal :=
  ∑ k : Fin 2048, max (w (ix2 r k)) (-(w (ix2 r k)))

/-- The dequantized ternary weights of a matrix of `n` rows. -/
def quant {n : ℕ} (w : (⟨2, ![n, 2048]⟩ : Shape).Idx → EReal) : (⟨2, ![n, 2048]⟩ : Shape).Idx → EReal :=
  fun i => dequant (w i) (scale (absSum w ⟨(i 0).val, idx2_lt0 i⟩))

theorem quant_apply {n : ℕ} (w : (⟨2, ![n, 2048]⟩ : Shape).Idx → EReal) (r : Fin n) (c : Fin 2048) :
    quant w (ix2 r c) = dequant (w (ix2 r c)) (scale (absSum w r)) := rfl

/-- Quantization reads one row: where row `r` of `w` is row `r'` of `w'`, so are the quantized rows. -/
theorem quant_of_row {n n' : ℕ} (w : (⟨2, ![n, 2048]⟩ : Shape).Idx → EReal) (w' : (⟨2, ![n', 2048]⟩ : Shape).Idx → EReal)
    (r : Fin n) (r' : Fin n') (hrow : ∀ k : Fin 2048, w (ix2 r k) = w' (ix2 r' k)) (c : Fin 2048) :
    quant w (ix2 r c) = quant w' (ix2 r' c) := by
  rw [quant_apply, quant_apply, hrow c]
  unfold absSum
  simp only [hrow]

/-- The layer on `n` input rows: `out[r, o] = Σ_k x[r, k] · wq[o, k] + b[o]`. -/
def linear {n : ℕ} (x : (⟨2, ![n, 2048]⟩ : Shape).Idx → EReal) (wq : (⟨2, ![2048, 2048]⟩ : Shape).Idx → EReal)
    (b : (⟨1, ![2048]⟩ : Shape).Idx → EReal) : (⟨2, ![n, 2048]⟩ : Shape).Idx → EReal :=
  fun i => (∑ k : Fin 2048, x (ix2 (⟨(i 0).val, idx2_lt0 i⟩ : Fin n) k) * wq (ix2 (⟨(i 1).val, idx2_lt1 i⟩ : Fin 2048) k))
    + b (ix1 (⟨(i 1).val, idx2_lt1 i⟩ : Fin 2048))

theorem linear_apply {n : ℕ} (x : (⟨2, ![n, 2048]⟩ : Shape).Idx → EReal) (wq : (⟨2, ![2048, 2048]⟩ : Shape).Idx → EReal)
    (b : (⟨1, ![2048]⟩ : Shape).Idx → EReal) (r : Fin n) (o : Fin 2048) :
    linear x wq b (ix2 r o) = (∑ k : Fin 2048, x (ix2 r k) * wq (ix2 o k)) + b (ix1 o) := rfl

/-- The layer reads one input row: where row `r` of `x` is row `r'` of `x'`, so are the output rows. -/
theorem linear_of_row {n n' : ℕ} (x : (⟨2, ![n, 2048]⟩ : Shape).Idx → EReal) (x' : (⟨2, ![n', 2048]⟩ : Shape).Idx → EReal)
    (wq : (⟨2, ![2048, 2048]⟩ : Shape).Idx → EReal) (b : (⟨1, ![2048]⟩ : Shape).Idx → EReal)
    (r : Fin n) (r' : Fin n') (hrow : ∀ k : Fin 2048, x (ix2 r k) = x' (ix2 r' k)) (o : Fin 2048) :
    linear x wq b (ix2 r o) = linear x' wq b (ix2 r' o) := by
  rw [linear_apply, linear_apply]
  simp only [hrow]

/-- The whole result over a batch of 4 sequences of 4096 positions:
    `out[b, s, o] = Σ_k x[b, s, k] · quant(w)[o, k] + bias[o]`. -/
def result (x : (⟨3, ![4, 4096, 2048]⟩ : Shape).Idx → EReal) (w : (⟨2, ![2048, 2048]⟩ : Shape).Idx → EReal)
    (b : (⟨1, ![2048]⟩ : Shape).Idx → EReal) : (⟨3, ![4, 4096, 2048]⟩ : Shape).Idx → EReal :=
  fun i => (∑ k : Fin 2048, x (ix3 (⟨(i 0).val, (i 0).isLt⟩ : Fin 4) (⟨(i 1).val, (i 1).isLt⟩ : Fin 4096) k)
      * quant w (ix2 (⟨(i 2).val, (i 2).isLt⟩ : Fin 2048) k))
    + b (ix1 (⟨(i 2).val, (i 2).isLt⟩ : Fin 2048))

theorem result_apply (x : (⟨3, ![4, 4096, 2048]⟩ : Shape).Idx → EReal) (w : (⟨2, ![2048, 2048]⟩ : Shape).Idx → EReal)
    (b : (⟨1, ![2048]⟩ : Shape).Idx → EReal) (p : Fin 4) (s : Fin 4096) (o : Fin 2048) :
    result x w b (ix3 p s o) = (∑ k : Fin 2048, x (ix3 p s k) * quant w (ix2 o k)) + b (ix1 o) := rfl

end TernaryLinear

end
-- ==== Proof.QuantBody.lean ====
/-
  The quantizer's body, read at an index.

  One grid point of the first kernel holds a band `x0` of 256 rows of the weight matrix. What it stores at row `p`,
  column `q` is `dequant (x0[p, q]) (scale (Σ_k |x0[p, k]|))`: the lane reduction is the row's sum of absolute values,
  kept as a column, divided by 2048, floored, and broadcast back over the row; the comparisons, the two selects and the
  product are entry by entry. So the stored band is the quantization `TernaryLinear.quant` of the band.
-/
import proofs.«180581_j59562606461169_1_alg».proof.Proof.Gen.KernelIdeal.Skeleton
import proofs.«180581_j59562606461169_1_alg».proof.Proof.LibKeepdims
import proofs.«180581_j59562606461169_1_alg».proof.Proof.Spec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx TernaryLinear

/-- The sum over the lanes of row `p` of a 256 × 2048 band. -/
theorem laneSum_apply (v : FVec Ideal S256x2048 .f32) (p : Fin 256) (hφ : FKind.Formats FTy.f32)
    (hacc : (0x00000000#32 : BitVec 32) = FKind.add.neutral FTy.f32 hφ) :
    multiReduction .add [1] S256 v 0x00000000#32 Gen.reduces_S256x2048_S256 hφ hacc (ix1 p) = ∑ k : Fin 2048, v (ix2 p k) := by
  refine (Ideal.multiReduction_add_single v 0x00000000#32 Gen.reduces_S256x2048_S256 hφ hacc (ix1 p)).trans ?_
  refine Finset.sum_congr rfl fun k _ => congrArg v ?_
  funext a
  match a with
  | ⟨0, _⟩ => rfl
  | ⟨1, _⟩ => rfl

/-- The column of row scales at row `p`: the floored mean of the row's absolute values. -/
theorem scaleColumn_apply (x0 : FVec Ideal S256x2048 .f32) (p : Fin 256) (hφ : FKind.Formats FTy.f32)
    (hacc : (0x00000000#32 : BitVec 32) = FKind.add.neutral FTy.f32 hφ) :
    maximumf (divf (shapeCast S256x1 (multiReduction .add [1] S256 (absf x0) 0x00000000#32 Gen.reduces_S256x2048_S256 hφ hacc)
        Gen.shapeCasts_S256_S256x1) (broadcast S256x1 (FloatOps.ofBits FTy.f32 0x45000000#32)))
      (broadcast S256x1 (FloatOps.ofBits FTy.f32 0x322BCC77#32)) (ix2 p (0 : Fin 1)) = scale (absSum x0 p) := by
  show max (Ideal.div (shapeCast S256x1 (multiReduction .add [1] S256 (absf x0) 0x00000000#32 Gen.reduces_S256x2048_S256 hφ hacc)
        Gen.shapeCasts_S256_S256x1 (ix2 p (0 : Fin 1))) (Ideal.ofBits .f32 0x45000000#32)) (Ideal.ofBits .f32 0x322BCC77#32) = _
  rw [Keepdims.shapeCast_a_a1_apply _ Gen.shapeCasts_S256_S256x1 p 0, laneSum_apply (absf x0) p hφ hacc]
  rfl

/-- The entry-by-entry part: against any column `col` of row scales, the stored value at `(p, q)` is `dequant` of the
    entry and its row's scale. -/
theorem dequant_apply (x0 : FVec Ideal S256x2048 .f32) (col : FVec Ideal S256x1 .f32) (p : Fin 256) (q : Fin 2048) :
    truncf FTy.bf16
      (mulf
        (select (cmpf .ogt (divf x0 (broadcastTo S256x2048 col Gen.broadcasts_S256x1_S256x2048)) (broadcast S256x2048 (FloatOps.ofBits FTy.f32 0x3D4CCCCD#32)))
          (broadcast S256x2048 (FloatOps.ofBits FTy.f32 0x3F800000#32))
          (select (cmpf .olt (divf x0 (broadcastTo S256x2048 col Gen.broadcasts_S256x1_S256x2048)) (broadcast S256x2048 (FloatOps.ofBits FTy.f32 0xBD4CCCCD#32)))
            (broadcast S256x2048 (FloatOps.ofBits FTy.f32 0xBF800000#32))
            (broadcast S256x2048 (FloatOps.ofBits FTy.f32 0x00000000#32))))
        (broadcastTo S256x2048 col Gen.broadcasts_S256x1_S256x2048))
      Gen.bitsLt_bf16_f32 (ix2 p q) = dequant (x0 (ix2 p q)) (col (ix2 p (0 : Fin 1))) := by
  have hs := Keepdims.broadcastTo_a1_ab_apply col Gen.broadcasts_S256x1_S256x2048 p q
  unfold dequant
  rw [← hs]
  rfl

/-- What a grid point of the quantizer stores at `(p, q)`: the quantization of its band. -/
theorem quant_payload (x0 : FVec Ideal S256x2048 .f32) (p : Fin 256) (q : Fin 2048) :
    k0_pay1 (F := Ideal) x0 (ix2 p q) = quant x0 (ix2 p q) := by
  unfold k0_pay1
  dsimp only
  refine (dequant_apply x0 _ p q).trans ?_
  exact (congrArg (dequant (x0 (ix2 p q))) (scaleColumn_apply x0 p _ _)).trans (quant_apply x0 p q).symm

end Cert.KernelIdeal.Body

end
-- ==== Proof.QuantRegion.lean ====
/-
  The first kernel region as one function of the weight matrix.

  The grid has 8 points; point `t` reads rows `256 t … 256 t + 255` of the weight matrix `W` (all 2048 columns) and
  writes the same rows of the result. What it writes is the quantization of its band, and quantization reads one row at
  a time, so the band written is that band of `quant W`. The 8 bands cover the 2048 rows, so after the region the result
  array holds `quant W`, whatever contents `V` the region was entered with.
-/
import proofs.«180581_j59562606461169_1_alg».proof.Proof.Gen.KernelIdeal.Frame
import proofs.«180581_j59562606461169_1_alg».proof.Proof.QuantBody
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.QuantRegion

open Cert.KernelIdeal Cert.KernelIdeal.Gen Idealize.ShloMosaic.ValueIdx TernaryLinear

variable (V : (c : Dev nD) → (b : Ref sig .tc) → Buf (Elt Ideal) ((c : Thread nD τ).loc b))

theorem hz : (![0, 0] : Fin 2 → Nat) = fun _ => 0 := funext fun a => by fin_cases a <;> rfl

/-- The weight matrix as the region finds it. -/
abbrev W (c : Dev nD) : FVec Ideal S2048x2048 .f32 := V c main_arg1
/-- The band of 256 rows that point `t` reads. -/
abbrev band (c : Dev nD) (t : Fin cfg0.N) : FVec Ideal S256x2048 .f32 := iblk0 V c 0 t

/-- Both windows' block at point `t` is band `t`, all columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the band point `t` reads is row `256 t + p` of the matrix. -/
theorem band_apply (c : Dev nD) (t : Fin cfg0.N) (p : Fin 256) (k : Fin 2048) (r : Fin 2048) (hr : r.val = 256 * t.val + p.val) :
    band V c t (ix2 p k) = W V c (ix2 r k) := by
  obtain ⟨e0, e1, e2, e3⟩ := idx_facts t
  show V c main_arg1 (((cfg0.win 0).blk t).view.emb (ix2 p k)) = V c main_arg1 (ix2 r k)
  refine congrArg (V c main_arg1) ?_
  funext a; apply Fin.ext
  match a with
  | ⟨0, _⟩ => show win0_0.index t (0 : Fin 2) * 256 + 1 * p.val = r.val; omega
  | ⟨1, _⟩ => show win0_0.index t (1 : Fin 2) * 2048 + 1 * k.val = k.val; omega

/-- What point `t` writes back is band `t` of `quant W`. -/
theorem flushed_eq (c : Dev nD) (t : Fin cfg0.N) :
    (dat0 V c).flushed 1 t = ((cfg0.win 1).blk t).view.read (Elt Ideal) (quant (W V c)) := by
  show (cfg0.win 1).cut (grid0.coords t) ((dat0 V c).after 1 t) = _
  rw [after0_1]
  unfold out0_1
  rw [View.canon_unit_zero hz]
  simp only [View.ld_unit_zero (S := S256x2048) hz]
  funext j
  obtain ⟨p, q, rfl⟩ : ∃ (p : Fin 256) (q : Fin 2048), j = ix2 p q := ⟨j 0, j 1, eq_ix2 j⟩
  obtain ⟨e0, e1, e2, e3⟩ := idx_facts t
  have h8 : cfg0.N = 8 := N_0
  have ht : t.val < 8 := by have := t.isLt; omega
  have hemb : ((cfg0.win 1).blk t).view.emb (ix2 p q) = ix2 (⟨256 * t.val + p.val, by omega⟩ : Fin 2048) q := by
    funext a; apply Fin.ext
    match a with
    | ⟨0, _⟩ => show win0_1.index t (0 : Fin 2) * 256 + 1 * p.val = 256 * t.val + p.val; omega
    | ⟨1, _⟩ => show win0_1.index t (1 : Fin 2) * 2048 + 1 * q.val = q.val; omega
  show k0_pay1 (F := Ideal) (band V c t) (ix2 p q) = quant (W V c) (((cfg0.win 1).blk t).view.emb (ix2 p q))
  rw [hemb]
  refine (Body.quant_payload (band V c t) p q).trans ?_
  exact quant_of_row (band V c t) (W V c) p _ (fun k => band_apply V c t p k _ rfl) q

/-- An index of the result is in point `t`'s block iff each coordinate is in the block's range on its axis. -/
theorem mem_blk (t : Fin cfg0.N) (i : S2048x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v1).slice (win0_1.rect t)).set ↔ _
  rw [View.set_slice_whole, Rect.mem_set_unit]
  exact Iff.rfl

/-- After the region the result array holds the quantized weights. -/
theorem final (c : Dev nD) : (dat0 V c).arrAt 1 cfg0.N = quant (W V c) :=
  (dat0 V c).arrAt_eq_of_cover 1 (quant (W V c)) (fun t _ => flushed_eq V c t) fun i => by
    have hi0 : (i 0).val < 2048 := (i 0).isLt
    have hi1 : (i 1).val < 2048 := (i 1).isLt
    have h8 : cfg0.N = 8 := N_0
    have h8' : grid0.N = 8 := N_0
    refine ⟨⟨(i 0).val / 256, by omega⟩, flush0_1 _, ?_⟩
    obtain ⟨e0, e1, e2, e3⟩ := idx_facts ⟨(i 0).val / 256, by omega⟩
    have e2' : win0_1.index ⟨(i 0).val / 256, by omega⟩ (0 : Fin 2) = (i 0).val / 256 := e2
    rw [mem_blk]
    intro a
    match a with
    | ⟨0, _⟩ => show win0_1.index ⟨(i 0).val / 256, _⟩ (0 : Fin 2) * 256 ≤ (i 0).val ∧ (i 0).val < win0_1.index ⟨(i 0).val / 256, _⟩ (0 : Fin 2) * 256 + 256; omega
    | ⟨1, _⟩ => show win0_1.index ⟨(i 0).val / 256, _⟩ (1 : Fin 2) * 2048 ≤ (i 1).val ∧ (i 1).val < win0_1.index ⟨(i 0).val / 256, _⟩ (1 : Fin 2) * 2048 + 2048; omega

end Cert.KernelIdeal.QuantRegion

end
-- ==== Proof.MatmulBody.lean ====
/-
  The layer's body, read at an index.

  One grid point of the second kernel holds a band `x0` of 256 input rows, the whole quantized weight matrix `x1` and
  the bias `x2`. The matrix product contracts the last axis of both operands into a zero accumulator, so its entry at
  row `p`, column `o` is the plain sum `Σ_k x0[p, k] · x1[o, k]`; the bias is laid out as one row and broadcast down the
  band. What the point stores at `(p, o)` is therefore `TernaryLinear.linear x0 x1 x2` at `(p, o)`.
-/
import proofs.«180581_j59562606461169_1_alg».proof.Proof.Gen.KernelIdeal.Skeleton
import proofs.«180581_j59562606461169_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx TernaryLinear

/-! The operand indices of the product at an output index `i` and a contraction index `q`: the left operand is read at
    row `i 0`, the right at row `i 1`, both at column `q`. -/

theorem lhs_row (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem lhs_col (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem rhs_row (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem rhs_col (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- The product into a zero accumulator at `(p, o)`: the sum over the shared last axis. -/
theorem product_apply (l : FVec Ideal S256x2048 .bf16) (r : FVec Ideal S2048x2048 .bf16) (p : Fin 256) (o : Fin 2048) :
    matmul dot_S256x2048_S2048x2048_S256x2048_1_1_0_0_n_n none l r (constant S256x2048 .f32 0x00000000#32) (ix2 p o)
      = ∑ k : Fin 2048, l (ix2 p k) * r (ix2 o k) := by
  simp only [matmul]
  rw [Ideal.matmul_constant_zero_apply, ← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p o) ((ValueIdx.contrEquiv1 dot_S256x2048_S2048x2048_S256x2048_1_1_0_0_n_n 2048 rfl rfl).symm k) = ix2 p k := funext fun a => Fin.ext (by
    match a with
    | ⟨0, _⟩ => exact lhs_row _ _
    | ⟨1, _⟩ => exact (lhs_col _ _).trans hk)
  have er : dot_S256x2048_S2048x2048_S256x2048_1_1_0_0_n_n.rhsIdx (ix2 p o) ((ValueIdx.contrEquiv1 dot_S256x2048_S2048x2048_S256x2048_1_1_0_0_n_n 2048 rfl rfl).symm k) = ix2 o k := funext fun a => Fin.ext (by
    match a with
    | ⟨0, _⟩ => exact rhs_row _ _
    | ⟨1, _⟩ => exact (rhs_col _ _).trans hk)
  rw [el, er]

/-- What a grid point of the layer stores at `(p, o)`: the layer on its band of input rows. -/
theorem linear_payload (x0 : FVec Ideal S256x2048 .f32) (x1 : FVec Ideal S2048x2048 .bf16) (x2 : FVec Ideal S2048 .f32)
    (p : Fin 256) (o : Fin 2048) :
    k1_pay1 (F := Ideal) x0 x1 x2 (ix2 p o) = linear x0 x1 x2 (ix2 p o) := by
  unfold k1_pay1
  show matmul dot_S256x2048_S2048x2048_S256x2048_1_1_0_0_n_n none
        (truncf FTy.bf16 (shapeCast S256x2048 x0 Gen.shapeCasts_S256x2048_S256x2048) Gen.bitsLt_bf16_f32)
        (shapeCast S2048x2048 x1 Gen.shapeCasts_S2048x2048_S2048x2048) (constant S256x2048 .f32 0x00000000#32) (ix2 p o)
      + broadcastTo S256x2048 (shapeCast S1x2048 x2 Gen.shapeCasts_S2048_S1x2048) Gen.broadcasts_S1x2048_S256x2048 (ix2 p o) = _
  rw [product_apply, broadcastTo_1b_ab_apply _ Gen.broadcasts_S1x2048_S256x2048 p o,
    shapeCast_a_1a_apply x2 Gen.shapeCasts_S2048_S1x2048 0 o, shapeCast_self, shapeCast_self, linear_apply]
  rfl

end Cert.KernelIdeal.Body

end
-- ==== Proof.LinearRegion.lean ====
/-
  The second kernel region as one function of its three input arrays.

  The grid has 64 points; point `t` reads rows `256 t … 256 t + 255` of the 16384 × 2048 input `X`, the whole quantized
  weight matrix `Wq` and the whole bias `B`, and writes the same rows of the result. What it writes is the layer on its
  band of input rows, and an output row of the layer reads one input row, so the band written is that band of
  `linear X Wq B`. The 64 bands cover the 16384 rows, so after the region the result array holds `linear X Wq B`,
  whatever contents `V` the region was entered with.
-/
import proofs.«180581_j59562606461169_1_alg».proof.Proof.Gen.KernelIdeal.Frame
import proofs.«180581_j59562606461169_1_alg».proof.Proof.MatmulBody
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.LinearRegion

open Cert.KernelIdeal Cert.KernelIdeal.Gen Idealize.ShloMosaic.ValueIdx TernaryLinear

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The arrays as the region finds them: the input rows, the quantized weights, the bias. -/
abbrev X (c : Dev nD) : FVec Ideal S16384x2048 .f32 := V c main_v0
abbrev Wq (c : Dev nD) : FVec Ideal S2048x2048 .bf16 := V c main_v1
abbrev B (c : Dev nD) : FVec Ideal S2048 .f32 := V c main_arg2
/-- What point `t` reads of each. -/
abbrev xband (c : Dev nD) (t : Fin cfg1.N) : FVec Ideal S256x2048 .f32 := iblk1 V c 0 t
abbrev wqblk (c : Dev nD) (t : Fin cfg1.N) : FVec Ideal S2048x2048 .bf16 := iblk1 V c 1 t
abbrev bblk (c : Dev nD) (t : Fin cfg1.N) : FVec Ideal S2048 .f32 := iblk1 V c 2 t

/-- The input's and the result's block at point `t` is band `t`, all columns; the weights' and the bias's is the whole
    array at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the band point `t` reads is row `256 t + p` of the input. -/
theorem xband_apply (c : Dev nD) (t : Fin cfg1.N) (p : Fin 256) (k : Fin 2048) (r : Fin 16384) (hr : r.val = 256 * t.val + p.val) :
    xband V c t (ix2 p k) = X V c (ix2 r k) := by
  obtain ⟨e0, e1, -⟩ := idx_facts t
  show V c main_v0 (((cfg1.win 0).blk t).view.emb (ix2 p k)) = V c main_v0 (ix2 r k)
  refine congrArg (V c main_v0) ?_
  funext a; apply Fin.ext
  match a with
  | ⟨0, _⟩ => show win1_0.index t (0 : Fin 2) * 256 + 1 * p.val = r.val; omega
  | ⟨1, _⟩ => show win1_0.index t (1 : Fin 2) * 2048 + 1 * k.val = k.val; omega

/-- Every point reads the whole weight matrix. -/
theorem wqblk_eq (c : Dev nD) (t : Fin cfg1.N) : wqblk V c t = Wq V c := by
  obtain ⟨-, -, e2, e3, -⟩ := idx_facts t
  funext j
  show V c main_v1 (((cfg1.win 1).blk t).view.emb j) = V c main_v1 j
  refine congrArg (V c main_v1) ?_
  funext a; apply Fin.ext
  match a with
  | ⟨0, _⟩ => show win1_1.index t (0 : Fin 2) * 2048 + 1 * (j 0).val = (j 0).val; omega
  | ⟨1, _⟩ => show win1_1.index t (1 : Fin 2) * 2048 + 1 * (j 1).val = (j 1).val; omega

/-- Every point reads the whole bias. -/
theorem bblk_eq (c : Dev nD) (t : Fin cfg1.N) : bblk V c t = B V c := by
  obtain ⟨-, -, -, -, e4, -⟩ := idx_facts t
  funext j
  show V c main_arg2 (((cfg1.win 2).blk t).view.emb j) = V c main_arg2 j
  refine congrArg (V c main_arg2) ?_
  funext a; apply Fin.ext
  match a with
  | ⟨0, _⟩ => show win1_2.index t (0 : Fin 1) * 2048 + 1 * (j 0).val = (j 0).val; omega

/-- What point `t` writes back is band `t` of `linear X Wq B`. -/
theorem flushed_eq (c : Dev nD) (t : Fin cfg1.N) :
    (dat1 V c).flushed 3 t = ((cfg1.win 3).blk t).view.read (Elt Ideal) (linear (X V c) (Wq V c) (B V c)) := by
  show (cfg1.win 3).cut (grid1.coords t) ((dat1 V c).after 3 t) = _
  rw [after1_3]
  unfold out1_3
  rw [View.canon_unit_zero hz]
  simp only [View.ld_unit_zero (S := S256x2048) hz, View.ld_unit_zero (S := S2048x2048) hz, View.ld_unit_zero (S := S2048) hz1]
  funext j
  obtain ⟨p, o, rfl⟩ : ∃ (p : Fin 256) (o : Fin 2048), j = ix2 p o := ⟨j 0, j 1, eq_ix2 j⟩
  obtain ⟨-, -, -, -, -, e5, e6⟩ := idx_facts t
  have h64 : cfg1.N = 64 := N_1
  have ht : t.val < 64 := by have := t.isLt; omega
  have hemb : ((cfg1.win 3).blk t).view.emb (ix2 p o) = ix2 (⟨256 * t.val + p.val, by omega⟩ : Fin 16384) o := by
    funext a; apply Fin.ext
    match a with
    | ⟨0, _⟩ => show win1_3.index t (0 : Fin 2) * 256 + 1 * p.val = 256 * t.val + p.val; omega
    | ⟨1, _⟩ => show win1_3.index t (1 : Fin 2) * 2048 + 1 * o.val = o.val; omega
  show k1_pay1 (F := Ideal) (xband V c t) (wqblk V c t) (bblk V c t) (ix2 p o)
    = linear (X V c) (Wq V c) (B V c) (((cfg1.win 3).blk t).view.emb (ix2 p o))
  rw [hemb, wqblk_eq, bblk_eq]
  refine (Body.linear_payload (xband V c t) (Wq V c) (B V c) p o).trans ?_
  exact linear_of_row (xband V c t) (X V c) (Wq V c) (B V c) p _ (fun k => xband_apply V c t p k _ rfl) o

/-- An index of the result is in point `t`'s block iff each coordinate is in the block's range on its axis. -/
theorem mem_blk (t : Fin cfg1.N) (i : S16384x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v2).slice (win1_3.rect t)).set ↔ _
  rw [View.set_slice_whole, Rect.mem_set_unit]
  exact Iff.rfl

/-- After the region the result array holds the layer's output on all 16384 rows. -/
theorem final (c : Dev nD) : (dat1 V c).arrAt 3 cfg1.N = linear (X V c) (Wq V c) (B V c) :=
  (dat1 V c).arrAt_eq_of_cover 3 (linear (X V c) (Wq V c) (B V c)) (fun t _ => flushed_eq V c t) fun i => by
    have hi0 : (i 0).val < 16384 := (i 0).isLt
    have hi1 : (i 1).val < 2048 := (i 1).isLt
    have h64 : cfg1.N = 64 := N_1
    have h64' : grid1.N = 64 := N_1
    refine ⟨⟨(i 0).val / 256, by omega⟩, flush1_3 _, ?_⟩
    obtain ⟨-, -, -, -, -, e5, e6⟩ := idx_facts ⟨(i 0).val / 256, by omega⟩
    have e5' : win1_3.index ⟨(i 0).val / 256, by omega⟩ (0 : Fin 2) = (i 0).val / 256 := e5
    rw [mem_blk]
    intro a
    match a with
    | ⟨0, _⟩ => show win1_3.index ⟨(i 0).val / 256, _⟩ (0 : Fin 2) * 256 ≤ (i 0).val ∧ (i 0).val < win1_3.index ⟨(i 0).val / 256, _⟩ (0 : Fin 2) * 256 + 256; omega
    | ⟨1, _⟩ => show win1_3.index ⟨(i 0).val / 256, _⟩ (1 : Fin 2) * 2048 ≤ (i 1).val ∧ (i 1).val < win1_3.index ⟨(i 0).val / 256, _⟩ (1 : Fin 2) * 2048 + 2048; omega

end Cert.KernelIdeal.LinearRegion

end
-- ==== Proof.KernelValue.lean ====
/-
  The kernel program's result as one function of its three arguments.

  @main lays the batch `x` of 4 × 4096 input rows out as 16384 rows, runs the quantizer region on the weight matrix,
  runs the layer region on the 16384 rows against the quantized weights and the bias, and lays the 16384 output rows back
  out as 4 × 4096. Reading the contents at @main's last boundary back through these four steps gives
  `reshape (linear (reshape x) (quant w) b)`; and since both reshapes keep the row-major position, row `4096 p + s` of the
  16384 is row `(p, s)` of the batch, so this is `TernaryLinear.result x w b`.
-/
import proofs.«180581_j59562606461169_1_alg».proof.Proof.Gen.KernelIdeal.Frame
import proofs.«180581_j59562606461169_1_alg».proof.Proof.QuantRegion
import proofs.«180581_j59562606461169_1_alg».proof.Proof.LinearRegion
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen Idealize.ShloMosaic.ValueIdx TernaryLinear

/-- The layer on the batch laid out as 16384 rows, laid back out as a batch, is `result`: the two layouts keep the
    row-major position, so row `4096 p + s` is batch entry `(p, s)`. -/
theorem relaid_eq (x : FVec Ideal S4x4096x2048 .f32) (w : FVec Ideal S2048x2048 .f32) (b : FVec Ideal S2048 .f32) :
    shapeCast S4x4096x2048 (linear (shapeCast S16384x2048 x Gen.shapeCasts_S4x4096x2048_S16384x2048) (quant w) b)
      Gen.shapeCasts_S16384x2048_S4x4096x2048 = result x w b := by
  funext i
  obtain ⟨p, s, o, rfl⟩ : ∃ (p : Fin 4) (s : Fin 4096) (o : Fin 2048), i = ix3 p s o := ⟨i 0, i 1, i 2, eq_ix3 i⟩
  have hr : 4096 * p.val + s.val < 16384 := by have := p.isLt; have := s.isLt; omega
  rw [shapeCast_apply _ Gen.shapeCasts_S16384x2048_S4x4096x2048 (ix3 p s o) (ix2 (⟨4096 * p.val + s.val, hr⟩ : Fin 16384) o) (by
      rw [Shape.rowMajor_val_two, Shape.rowMajor_val_three]
      show (4096 * p.val + s.val) * 2048 + o.val = (p.val * 4096 + s.val) * 2048 + o.val
      omega),
    linear_apply, result_apply]
  refine congrArg (· + b (ix1 o)) (Finset.sum_congr rfl fun k _ => congrArg (· * quant w (ix2 o k)) ?_)
  exact shapeCast_apply x Gen.shapeCasts_S4x4096x2048_S16384x2048 _ (ix3 p s k) (by
    rw [Shape.rowMajor_val_two, Shape.rowMajor_val_three]
    show (p.val * 4096 + s.val) * 2048 + k.val = (4096 * p.val + s.val) * 2048 + k.val
    omega)

variable (m : (ℓ : Loc nD τ sig) → Buf (Elt Ideal) ℓ) (ρ : Dev nD → PrngReg)

/-- The layer region is entered with the batch laid out as 16384 rows, -/
theorem entry_X (c : Dev nD) : LinearRegion.X (V2 m ρ) c
    = shapeCast S16384x2048 (m ((c : Thread nD τ).loc main_arg0)) Gen.shapeCasts_S4x4096x2048_S16384x2048 := by
  show W2 m ρ c (Proc.devRef .tc main_v0) = _
  rw [W2_of_ne m ρ c main_v0 (by decide)]
  show StableHlo.after hostOps0 (W0 m ρ c) (Proc.devRef .tc main_v0) = _
  after_results
  rfl

/-- the bias as launched, -/
theorem entry_B (c : Dev nD) : LinearRegion.B (V2 m ρ) c = m ((c : Thread nD τ).loc main_arg2) := by
  show W2 m ρ c (Proc.devRef .tc main_arg2) = _
  rw [W2_of_ne m ρ c main_arg2 (by decide)]
  show StableHlo.after hostOps0 (W0 m ρ c) (Proc.devRef .tc main_arg2) = _
  after_results

/-- and, for its weights, what the quantizer region left: the quantization of the weight matrix as launched. -/
theorem entry_Wq (c : Dev nD) : LinearRegion.Wq (V2 m ρ) c = quant (m ((c : Thread nD τ).loc main_arg1)) := by
  show W2 m ρ c (Proc.devRef .tc main_v1) = _
  refine (W2_arr m ρ c 1).trans ((QuantRegion.final (V1 m ρ) c).trans (congrArg quant ?_))
  show StableHlo.after hostOps0 (W0 m ρ c) (Proc.devRef .tc main_arg1) = _
  after_results

/-- The result array at @main's last boundary holds `result` of the three arguments as launched. -/
theorem W4_result (c : Dev nD) :
    W4 m ρ c (Proc.devRef .tc main_v3)
      = result (m ((c : Thread nD τ).loc main_arg0)) (m ((c : Thread nD τ).loc main_arg1)) (m ((c : Thread nD τ).loc main_arg2)) := by
  have e3 : W3 m ρ c (Proc.devRef .tc main_v2)
      = linear (LinearRegion.X (V2 m ρ) c) (LinearRegion.Wq (V2 m ρ) c) (LinearRegion.B (V2 m ρ) c) :=
    (W3_arr m ρ c 3).trans (LinearRegion.final (V2 m ρ) c)
  show StableHlo.after hostOps2 (W3 m ρ c) (Proc.devRef .tc main_v3) = _
  after_results
  show shapeCast S4x4096x2048 (W3 m ρ c (Proc.devRef .tc main_v2)) Gen.shapeCasts_S16384x2048_S4x4096x2048 = _
  rw [e3, entry_X, entry_Wq, entry_B]
  exact relaid_eq _ _ _

end Cert.KernelIdeal.Whole

end
-- ==== Proof.RefValue.lean ====
/-
  The reference, stage by stage, is the specification.

  The reference computes a column of row scales (sum of absolute values over the row, divided by 2048, and the larger of
  1e-8 and that mean), divides the weights by the broadcast column, compares against ±0.05, selects ±1 or 0, multiplies
  back by the broadcast column, contracts the input's last axis against the weights' last axis, and adds the broadcast
  bias. Read at an index, each stage is the corresponding piece of `TernaryLinear.result`; the only rearrangements are
  that the maximum's operands come in the other order and that the row sum starts from an explicit zero.
-/
import proofs.«180581_j59562606461169_1_alg».proof.Proof.Gen.ReferenceIdeal.Read
import proofs.«180581_j59562606461169_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx TernaryLinear

/-- The reference's column of row scales at row `o`. -/
theorem ref_scale (w : FVec Ideal S2048x2048 .f32) (o : Fin 2048) :
    val_main_v5 (F := Ideal) w (ix2 o (0 : Fin 1)) = scale (absSum w o) := by
  have hidx : ∀ k : Fin 2048, idx_main_v1 (idx_main_v2 (ix2 o (0 : Fin 1))) k = ix2 o k := fun k =>
    funext fun a => Fin.ext (by match a with | ⟨0, _⟩ => rfl | ⟨1, _⟩ => rfl)
  rw [val_main_v5_apply, val_main_call0_v1_apply, val_main_call0_v0_apply, val_main_cst_1_apply, val_main_v4_apply,
    val_main_v2_apply, val_main_v1_apply, val_main_v3_apply, val_main_cst_0_apply, val_main_cst_apply]
  simp only [hidx, val_main_v0_apply]
  show max (Ideal.ofBits .f32 0x322BCC77#32)
      (Ideal.div (Ideal.ofBits .f32 0x00000000#32 + ∑ k : Fin 2048, max (w (ix2 o k)) (-(w (ix2 o k)))) (Ideal.ofBits .f32 0x45000000#32)) = _
  rw [Ideal.ofBits_zero_f32, zero_add, max_comm]
  rfl

/-- The reference's dequantized weights are the quantization of the weight matrix. -/
theorem ref_quant (w : FVec Ideal S2048x2048 .f32) (o k : Fin 2048) :
    val_main_v16 (F := Ideal) w (ix2 o k) = quant w (ix2 o k) := by
  have h6 : idx_main_v6 (ix2 o k) = ix2 o (0 : Fin 1) :=
    funext fun a => Fin.ext (by match a with | ⟨0, _⟩ => rfl | ⟨1, _⟩ => rfl)
  have h15 : idx_main_v15 (ix2 o k) = ix2 o (0 : Fin 1) :=
    funext fun a => Fin.ext (by match a with | ⟨0, _⟩ => rfl | ⟨1, _⟩ => rfl)
  simp only [val_main_v16_apply, val_main_v14_apply, val_main_v13_apply, val_main_v9_apply, val_main_v7_apply,
    val_main_v6_apply, val_main_v8_apply, val_main_cst_2_apply, val_main_call2_v0_apply, val_main_cst_6_apply,
    val_main_v12_apply, val_main_v11_apply, val_main_v10_apply, val_main_cst_3_apply, val_main_call1_v0_apply,
    val_main_cst_4_apply, val_main_call1_v1_apply, val_main_cst_5_apply, val_main_v15_apply, h6, h15, ref_scale]
  rfl

/-- The reference's result is `TernaryLinear.result` of the three arguments. -/
theorem ref_result (x : FVec Ideal S4x4096x2048 .f32) (w : FVec Ideal S2048x2048 .f32) (b : FVec Ideal S2048 .f32) :
    val_main_v20 (F := Ideal) x w b = result x w b := by
  funext i
  obtain ⟨p, s, o, rfl⟩ : ∃ (p : Fin 4) (s : Fin 4096) (o : Fin 2048), i = ix3 p s o := ⟨i 0, i 1, i 2, eq_ix3 i⟩
  have hl : ∀ k : Fin 2048, lidx_main_v17 (ix3 p s o) k = ix3 p s k := fun k =>
    funext fun a => Fin.ext (by match a with | ⟨0, _⟩ => rfl | ⟨1, _⟩ => rfl | ⟨2, _⟩ => rfl)
  have hr : ∀ k : Fin 2048, ridx_main_v17 (ix3 p s o) k = ix2 o k := fun k =>
    funext fun a => Fin.ext (by match a with | ⟨0, _⟩ => rfl | ⟨1, _⟩ => rfl)
  have hb : idx_main_v18 (idx_main_v19 (ix3 p s o)) = ix1 o :=
    funext fun a => Fin.ext (by match a with | ⟨0, _⟩ => rfl)
  rw [val_main_v20_apply, val_main_v17_apply, val_main_v19_apply, val_main_v18_apply, hb, result_apply]
  simp only [hl, hr, ref_quant]
  rfl

end Cert.ReferenceIdeal.RefValue

end
-- ==== Proof.lean ====
/-
  A linear layer with ternary-quantized weights, computed by two kernels, against its plain definition.

  Both programs compute, over the extended reals,
      out[b, s, o] = Σ_k x[b, s, k] · wq[o, k] + bias[o],      wq[o, k] = sign_0.05(w[o, k] / scale_o) · scale_o,
  where `scale_o` is the mean of the absolute values of row `o` of `w`, floored at 1e-8, and `sign_0.05` is +1 above
  0.05, -1 below -0.05 and 0 between (`TernaryLinear.result`, Proof/Spec.lean).

  The kernel program quantizes the weight matrix in 8 bands of 256 rows (a row's scale reads only that row, so a band of
  the quantized matrix is the quantization of the band), then computes the layer in 64 bands of 256 of the 16384 input
  rows (an output row reads one input row), the batch laid out as rows before and back after; the bands cover their
  arrays, so each region leaves one function of its inputs, and their composition is `result` (Proof/QuantBody.lean,
  MatmulBody.lean, QuantRegion.lean, LinearRegion.lean, KernelValue.lean). The reference computes the same stages on
  whole arrays (Proof/RefValue.lean). The two sides differ only in the order of the maximum's operands, an explicit
  zero in front of the row sum, and the layout of the batch; no law that needs finite entries is used, so the
  precondition is not opened.

  No operation of the kernel was rewritten by idealization, so `preserves` has nothing to state.
-/
import proofs.«180581_j59562606461169_1_alg».proof.Defs
import proofs.«180581_j59562606461169_1_alg».proof.Proof.Gen.Kernel
import proofs.«180581_j59562606461169_1_alg».proof.Proof.Gen.Kernel.Frame
import proofs.«180581_j59562606461169_1_alg».proof.Proof.Gen.KernelIdeal
import proofs.«180581_j59562606461169_1_alg».proof.Proof.Gen.KernelIdeal.Frame
import proofs.«180581_j59562606461169_1_alg».proof.Proof.Gen.ReferenceIdeal
import proofs.«180581_j59562606461169_1_alg».proof.Proof.Gen.ReferenceIdeal.Run
import proofs.«180581_j59562606461169_1_alg».proof.Proof.Gen.ReferenceIdeal.Read
import proofs.«180581_j59562606461169_1_alg».proof.Proof.Gen.Pre_finite_inputs
import proofs.«180581_j59562606461169_1_alg».proof.Proof.KernelRun
import proofs.«180581_j59562606461169_1_alg».proof.Proof.KernelValue
import proofs.«180581_j59562606461169_1_alg».proof.Proof.RefValue
import Idealize.ShloMosaic.Adequacy
import Idealize.ShloMosaic.Init

noncomputable section

namespace Cert.Proof

open Idealize.ShloMosaic Idealize.SL.Sem TernaryLinear

/-- Each program runs to the end without a fault and leaves its arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with `result x w bias` in their result array. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.W4_result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.ref_result,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
